-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x28x28 : Shape := ⟨3, ![8192, 28, 28]⟩
abbrev S8x784 : Shape := ⟨2, ![8, 784]⟩
abbrev S_ : Shape := ⟨0, ![]⟩

class Facts : Prop where
  bcast_S_S8192x28x28 : S_.BroadcastsInDim S8192x28x28 (![] : Fin 0 → Fin S8192x28x28.rank)
  reducesTo_S8192x28x28_S_d0_1_2 : S8192x28x28.ReducesTo [0, 1, 2] S_
  h_S_ : 0 < S_.numel
  bcast_S_S8x784 : S_.BroadcastsInDim S8x784 (![] : Fin 0 → Fin S8x784.rank)
  reducesTo_S8x784_S_d0_1 : S8x784.ReducesTo [0, 1] S_

variable [Facts]

def fn {F : FTy → Type} [FloatOps F] (main_arg0 : FVec F S8192x28x28 .f32) (main_arg1 : FVec F S8x784 .f32) : IVec S_ 1 :=
  let main_v0 : FVec F S8192x28x28 .f32 := Host.absf main_arg0
  let main_cst : FVec F S_ .f32 := constant S_ .f32 0x7F800000#32
  let main_v1 : FVec F S8192x28x28 .f32 := broadcastInDim S8192x28x28 ![] bcast_S_S8192x28x28 main_cst
  let main_v2 : IVec S8192x28x28 1 := cmpf .olt main_v0 main_v1
  let main_c : IVec S_ 1 := constantI S_ 1 1#1
  let main_v3 : IVec S_ 1 := (fun x v => Host.reduce IntOp.andi x v reducesTo_S8192x28x28_S_d0_1_2 h_S_) main_v2 main_c
  let main_v4 : FVec F S8x784 .f32 := Host.absf main_arg1
  let main_cst_0 : FVec F S_ .f32 := constant S_ .f32 0x7F800000#32
  let main_v5 : FVec F S8x784 .f32 := broadcastInDim S8x784 ![] bcast_S_S8x784 main_cst_0
  let main_v6 : IVec S8x784 1 := cmpf .olt main_v4 main_v5
  let main_c_1 : IVec S_ 1 := constantI S_ 1 1#1
  let main_v7 : IVec S_ 1 := (fun x v => Host.reduce IntOp.andi x v reducesTo_S8x784_S_d0_1 h_S_) main_v6 main_c_1
  let main_v8 : IVec S_ 1 := andi main_v3 main_v7
  main_v8
-- ==== Kernel.lean ====
abbrev S8192x28x28 : Shape := ⟨3, ![8192, 28, 28]⟩
abbrev S8x784 : Shape := ⟨2, ![8, 784]⟩
abbrev S8192x784 : Shape := ⟨2, ![8192, 784]⟩
abbrev S8x8192 : Shape := ⟨2, ![8, 8192]⟩
abbrev S5x8192 : Shape := ⟨2, ![5, 8192]⟩
abbrev S8192x5 : Shape := ⟨2, ![8192, 5]⟩
abbrev S1024x784 : Shape := ⟨2, ![1024, 784]⟩
abbrev S8x1024 : Shape := ⟨2, ![8, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x28x28, .f32⟩
  | .hbm, ⟨1, _⟩ => ⟨S8x784, .f32⟩
  | .hbm, ⟨2, _⟩ => ⟨S8192x784, .f32⟩
  | .hbm, ⟨3, _⟩ => ⟨S8x8192, .f32⟩
  | .hbm, ⟨4, _⟩ => ⟨S8x8192, .f32⟩
  | .hbm, ⟨5, _⟩ => ⟨S5x8192, .f32⟩
  | .hbm, ⟨6, _⟩ => ⟨S8192x5, .f32⟩
  | .hbm, ⟨7, _⟩ => ⟨S5x8192, .f32⟩
  | .hbm, ⟨8, _⟩ => ⟨S8192x5, .f32⟩
  | .local _ .vmem, ⟨0, _⟩ => ⟨S1024x784, .f32⟩
  | .local _ .vmem, ⟨1, _⟩ => ⟨S1024x784, .f32⟩
  | .local _ .vmem, ⟨2, _⟩ => ⟨S8x784, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8192x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2 : Ref sig .tc := ⟨.hbm, 5, rfl⟩
abbrev main_v0_1 : Ref sig .tc := ⟨.hbm, 6, rfl⟩
abbrev main_call0_v4 : Ref sig .tc := ⟨.hbm, 7, rfl⟩
abbrev main_v0_0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x28x28_S8192x784 : S8192x28x28.ShapeCasts S8192x784
  slices_S8x8192_S5x8192_0_0 : S8x8192.Slices ![0, 0] S5x8192
  transposes_S5x8192_S8192x5_1_0 : S5x8192.Transposes [1, 0] S8192x5
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  inb_S8x784_S8x784_0_0 : ∀ a, (![0, 0] : Fin 2 → Nat) a + S8x784.size a ≤ S8x784.size a
  h_S8x784 : 0 < S8x784.numel
  inb_S8x1024_S8x1024_0_0 : ∀ a, (![0, 0] : Fin 2 → Nat) a + S8x1024.size a ≤ S8x1024.size a
  h_S8x1024 : 0 < S8x1024.numel
  natLt_1_32 : 1 < 32
  dot_S8x784_S1024x784_S8x1024_1_1_0_0_n_n_wf : DotDims.WF S8x784 S1024x784 S8x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S8192x784.size a
  hwx0_0 : ∀ i : grid0.Coords, EltTy.bits .f32 = 32 ∨ (Rect.block (s := S8192x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x784.size a ≤ S8x784.size a
  hwx0_1 : ∀ i : grid0.Coords, EltTy.bits .f32 = 32 ∨ (Rect.block (s := S8x784) S8x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x8192.size a
  hwx0_2 : ∀ i : grid0.Coords, EltTy.bits .f32 = 32 ∨ (Rect.block (s := S8x8192) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x8192.size a
  hwx0_3 : ∀ i : grid0.Coords, EltTy.bits .f32 = 32 ∨ (Rect.block (s := S8x8192) S8x1024.size (cc0_transform_3 i) (hinb0_3 i)).WholeWords (EltTy.packing .f32)

variable [Facts₀]

def dot_S8x784_S1024x784_S8x1024_1_1_0_0_n_n : DotDims S8x784 S1024x784 S8x1024 where
  lhsContracting := [1]
  rhsContracting := [1]
  lhsNonContracting := [0]
  rhsNonContracting := [0]
  lhsBatch := []
  rhsBatch := []
  wf := dot_S8x784_S1024x784_S8x1024_1_1_0_0_n_n_wf

abbrev win0_0 : Pipeline.Window sig grid0 :=
  Pipeline.Window.ofSpec (Memref.whole main_call0_v0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_0) S8x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_1) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x28x28 : Shape := ⟨3, ![8192, 28, 28]⟩
abbrev S8x784 : Shape := ⟨2, ![8, 784]⟩
abbrev S8192x1x784 : Shape := ⟨3, ![8192, 1, 784]⟩
abbrev S8192x8x128 : Shape := ⟨3, ![8192, 8, 128]⟩
abbrev S8192x5x1 : Shape := ⟨3, ![8192, 5, 1]⟩
abbrev S8192x5 : Shape := ⟨2, ![8192, 5]⟩
abbrev S_ : Shape := ⟨0, ![]⟩
abbrev S1x1x784 : Shape := ⟨3, ![1, 1, 784]⟩
abbrev S1x8x128 : Shape := ⟨3, ![1, 8, 128]⟩
abbrev S1x784 : Shape := ⟨2, ![1, 784]⟩
abbrev S8 : Shape := ⟨1, ![8]⟩
abbrev S8x1 : Shape := ⟨2, ![8, 1]⟩
abbrev S8x128 : Shape := ⟨2, ![8, 128]⟩

abbrev nBuf : Space → Nat
  | .hbm => 13
  | .vmem => 5
  | .smem => 0
  | _ => 0

abbrev bufTy : (tb : Table) → Fin (tcTables nBuf tb) → BufTy
  | .hbm, ⟨0, _⟩ => ⟨S8192x28x28, .f32⟩
  | .hbm, ⟨1, _⟩ => ⟨S8x784, .f32⟩
  | .hbm, ⟨2, _⟩ => ⟨S8192x1x784, .f32⟩
  | .hbm, ⟨3, _⟩ => ⟨S8192x8x128, .f32⟩
  | .hbm, ⟨4, _⟩ => ⟨S8192x5x1, .f32⟩
  | .hbm, ⟨5, _⟩ => ⟨S8192x5, .f32⟩
  | .hbm, ⟨6, _⟩ => ⟨S_, .f32⟩
  | .hbm, ⟨7, _⟩ => ⟨S8192x5, .f32⟩
  | .hbm, ⟨8, _⟩ => ⟨S8192x5, .f32⟩
  | .hbm, ⟨9, _⟩ => ⟨S_, .f32⟩
  | .hbm, ⟨10, _⟩ => ⟨S8192x5, .f32⟩
  | .hbm, ⟨11, _⟩ => ⟨S8192x5, .i1⟩
  | .hbm, ⟨12, _⟩ => ⟨S8192x5, .f32⟩
  | .local _ .vmem, ⟨0, _⟩ => ⟨S1x1x784, .f32⟩
  | .local _ .vmem, ⟨1, _⟩ => ⟨S1x1x784, .f32⟩
  | .local _ .vmem, ⟨2, _⟩ => ⟨S8x784, .f32⟩
  | .local _ .vmem, ⟨3, _⟩ => ⟨S1x8x128, .f32⟩
  | .local _ .vmem, ⟨4, _⟩ => ⟨S1x8x128, .f32⟩
  | _, _ => ⟨S8192x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0_1 : Ref sig .tc := ⟨.hbm, 5, rfl⟩
abbrev main_call0_cst : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_v7 : Ref sig .tc := ⟨.hbm, 11, rfl⟩
abbrev main_v0_0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8192], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192x28x28_S8192x1x784 : S8192x28x28.ShapeCasts S8192x1x784
  slices_S8192x8x128_S8192x5x1_0_0_0 : S8192x8x128.Slices ![0, 0, 0] S8192x5x1
  shapeCasts_S8192x5x1_S8192x5 : S8192x5x1.ShapeCasts S8192x5
  bcast_S_S8192x5 : S_.BroadcastsInDim S8192x5 (![] : Fin 0 → Fin S8192x5.rank)
  inb_S1x1x784_S1x1x784_0_0_0 : ∀ a, (![0, 0, 0] : Fin 3 → Nat) a + S1x1x784.size a ≤ S1x1x784.size a
  h_S1x1x784 : 0 < S1x1x784.numel
  shapeCasts_S1x1x784_S1x784 : S1x1x784.ShapeCasts S1x784
  inb_S8x784_S8x784_0_0 : ∀ a, (![0, 0] : Fin 2 → Nat) a + S8x784.size a ≤ S8x784.size a
  h_S8x784 : 0 < S8x784.numel
  broadcasts_S1x784_S8x784 : S1x784.Broadcasts S8x784
  reduces_S8x784_S8 : S8x784.Reduces [1] S8
  shapeCasts_S8_S8x1 : S8.ShapeCasts S8x1
  shapeCasts_S8x1_S8x1 : S8x1.ShapeCasts S8x1
  broadcasts_S8x1_S8x128 : S8x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x784.size a ≤ S8192x1x784.size a
  hwx0_0 : ∀ i : grid0.Coords, EltTy.bits .f32 = 32 ∨ (Rect.block (s := S8192x1x784) S1x1x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x784.size a ≤ S8x784.size a
  hwx0_1 : ∀ i : grid0.Coords, EltTy.bits .f32 = 32 ∨ (Rect.block (s := S8x784) S8x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8192x8x128.size a
  hwx0_2 : ∀ i : grid0.Coords, EltTy.bits .f32 = 32 ∨ (Rect.block (s := S8192x8x128) S1x8x128.size (cc0_transform_2 i) (hinb0_2 i)).WholeWords (EltTy.packing .f32)

variable [Facts₀]

abbrev win0_0 : Pipeline.Window sig grid0 :=
  Pipeline.Window.ofSpec (Memref.whole main_call0_v0) S1x1x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Spec.lean ====
/-
  The function both programs compute, over the extended reals.

  A batch of 8192 images of 28 × 28 pixels is read as 8192 rows of 784 features, row-major: feature `k` of an image is
  its pixel `(k / 28, k % 28)`. The current of neuron `o` on image `b` is the inner product of weight row `o` with
  the features of image `b`; the neuron fires (value 1) when its current divided by the word 0x40000000 reaches the
  threshold word 0x3F4CCCCD, and is silent (value 0) otherwise. Of the eight weight rows the first five are kept.
  Both words are read the same way on both sides, so neither is ever evaluated.
-/
import Idealize.ShloMosaic.PureOps.Ideal
import Idealize.ShloMosaic.PureOps.Ideal.Laws
import Idealize.ShloMosaic.Lib.ValueIdx

noncomputable section

open scoped BigOperators

namespace Cert.Voltage

open Idealize.ShloMosaic Idealize.ShloMosaic.ValueIdx

/-- The images, the padded weights, the kept outputs. -/
abbrev Img : Shape := ⟨3, ![8192, 28, 28]⟩
abbrev Wts : Shape := ⟨2, ![8, 784]⟩
abbrev Out : Shape := ⟨2, ![8192, 5]⟩

/-- The pixel that feature `k` of image `b` is. -/
abbrev pix (b : Fin 8192) (k : Fin 784) : Img.Idx :=
  ix3 b ⟨k.val / 28, by have := k.isLt; omega⟩ ⟨k.val % 28, Nat.mod_lt _ (by decide)⟩

/-- The inner product of weight row `o` with the features of image `b`. -/
def dot (A : Img.Idx → EReal) (W : Wts.Idx → EReal) (b : Fin 8192) (o : Fin 8) : EReal :=
  ∑ k : Fin 784, W (ix2 o k) * A (pix b k)

/-- A neuron's output from its current: 1 when the halved current reaches the threshold, else 0. -/
def fire (y : EReal) : EReal :=
  (((Ideal.cmp .oge (Ideal.div y (Ideal.ofBits .f32 0x40000000#32)) (Ideal.ofBits .f32 0x3F4CCCCD#32)).toNat : ℝ) : EReal)

/-- One of the five kept neurons as one of the eight weight rows. -/
abbrev row (o : Fin 5) : Fin 8 := ⟨o.val, by have := o.isLt; omega⟩

/-- The currents: image by kept neuron. -/
def current (A : Img.Idx → EReal) (W : Wts.Idx → EReal) : Out.Idx → EReal :=
  fun i => dot A W (i 0) (row (i 1))

/-- The spikes: image by kept neuron. -/
def spikes (A : Img.Idx → EReal) (W : Wts.Idx → EReal) : Out.Idx → EReal :=
  fun i => fire (current A W i)

/-- A one-bit word widened to 32 bits and read signed is the bit read unsigned. -/
theorem widened_bit (b : BitVec 1) : (((b.setWidth 32).toInt : ℝ) : EReal) = ((b.toNat : ℝ) : EReal) := by
  by_cases h : b = 1#1
  · subst h; norm_num
  · rw [eq_zero_of_ne_one h]; norm_num

/-- The kernel's form of `fire`: compare, widen the bit to a 32-bit word, convert it signed. -/
theorem fire_signed (y : EReal) :
    FloatOps.sitofp (F := Ideal) .f32 ((FloatOps.cmpf (F := Ideal) (φ := .f32) .oge (Ideal.div y (Ideal.ofBits .f32 0x40000000#32)) (Ideal.ofBits .f32 0x3F4CCCCD#32)).setWidth 32)
      = fire y :=
  widened_bit _

/-- The reference's form of `fire`: compare, convert the bit unsigned. -/
theorem fire_unsigned (y : EReal) :
    FloatOps.uitofp (F := Ideal) .f32 (FloatOps.cmpf (F := Ideal) (φ := .f32) .oge (FloatOps.hostDivf (F := Ideal) (φ := .f32) y (Ideal.ofBits .f32 0x40000000#32)) (Ideal.ofBits .f32 0x3F4CCCCD#32))
      = fire y := rfl

end Cert.Voltage

end
-- ==== Proof.KernelBody.lean ====
/-
  The kernel body's two stored values at an index of the [8, 1024] block.

  The first is the product of the [8, 784] weight block with the [1024, 784] image block contracted over the 784
  features from a zero accumulator: at (o, r) the sum over k of weight (o, k) times image row r's feature k. The second
  is `fire` of the first, entry by entry: divide by the word 0x40000000, compare with the threshold word, widen the bit
  and convert it.
-/
import proofs.«105879_g2000104130142098_pallasbulk_149_2_alg».proof.Proof.Gen.KernelIdeal.Skeleton
import proofs.«105879_g2000104130142098_pallasbulk_149_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The product's dimension numbers: both operands contract their axis 1. -/
abbrev D := dot_S8x784_S1024x784_S8x1024_1_1_0_0_n_n

/-- The weight operand is read at the output's row … -/
theorem lhs_0 (j : S8x1024.Idx) (k : D.contr.Idx) : (D.lhsIdx j k 0 : ℕ) = j 0 := by
  simp [DotDims.lhsIdx, D, dot_S8x784_S1024x784_S8x1024_1_1_0_0_n_n]; rfl
/-- … and the contraction position; -/
theorem lhs_1 (j : S8x1024.Idx) (k : D.contr.Idx) : (D.lhsIdx j k 1 : ℕ) = k ⟨0, by decide⟩ := by
  simp [DotDims.lhsIdx, D, dot_S8x784_S1024x784_S8x1024_1_1_0_0_n_n]; rfl
/-- the image operand at the output's column … -/
theorem rhs_0 (j : S8x1024.Idx) (k : D.contr.Idx) : (D.rhsIdx j k 0 : ℕ) = j 1 := by
  simp [DotDims.rhsIdx, D, dot_S8x784_S1024x784_S8x1024_1_1_0_0_n_n]; rfl
/-- … and the contraction position. -/
theorem rhs_1 (j : S8x1024.Idx) (k : D.contr.Idx) : (D.rhsIdx j k 1 : ℕ) = k ⟨0, by decide⟩ := by
  simp [DotDims.rhsIdx, D, dot_S8x784_S1024x784_S8x1024_1_1_0_0_n_n]; rfl

/-- The contraction runs over the 784 features. -/
abbrev feat : D.contr.Idx ≃ Fin 784 := contrEquiv1 D 784 (by decide) (by decide)

/-- The product payload at (o, r): weight row `o` against image row `r`. -/
theorem product_apply (x0 : Vec Ideal S1024x784 .f32) (x1 : Vec Ideal S8x784 .f32) (o : Fin 8) (r : Fin 1024) :
    k0_pay1 x0 x1 (ix2 o r) = ∑ k : Fin 784, x1 (ix2 o k) * x0 (ix2 r k) := by
  unfold k0_pay1
  refine (Ideal.matmul_constant_zero_apply D none x1 (shapeCast S1024x784 x0 shapeCasts_S1024x784_S1024x784) (ix2 o r)).trans ?_
  rw [shapeCast_self, ← Equiv.sum_comp feat.symm]
  refine Finset.sum_congr rfl fun k _ => ?_
  congr 2
  · apply Shape.idx_ext₂
    · exact lhs_0 _ _
    · exact (lhs_1 _ _).trans (contrEquiv1_symm_val D 784 (by decide) (by decide) k)
  · apply Shape.idx_ext₂
    · exact rhs_0 _ _
    · exact (rhs_1 _ _).trans (contrEquiv1_symm_val D 784 (by decide) (by decide) k)

/-- The spike payload at an index is `fire` of the product payload there. -/
theorem spike_apply (x0 : Vec Ideal S1024x784 .f32) (x1 : Vec Ideal S8x784 .f32) (j : S8x1024.Idx) :
    k0_pay2 x0 x1 j = Cert.Voltage.fire (k0_pay1 x0 x1 j) :=
  Cert.Voltage.fire_signed _

end Cert.KernelIdeal.Hand

end
-- ==== Proof.KernelArrays.lean ====
/-
  The two output arrays of the kernel's region, whole.

  The region runs over 8 points; point `t` reads image rows 1024 t … 1024 t + 1023 (all 784 features) and the whole
  weight array, and writes columns 1024 t … 1024 t + 1023 of both [8, 8192] outputs. So after the run the first output
  holds at (o, b) the inner product of weight row `o` with feature row `b`, and the second `fire` of that.
-/
import proofs.«105879_g2000104130142098_pallasbulk_149_2_alg».proof.Proof.Gen.KernelIdeal.Frame
import proofs.«105879_g2000104130142098_pallasbulk_149_2_alg».proof.Proof.KernelBody

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Weight rows against feature rows: the [8, 8192] array of inner products. -/
def products (X : S8192x784.Idx → EReal) (W : S8x784.Idx → EReal) : S8x8192.Idx → EReal :=
  fun i => ∑ k : Fin 784, W (ix2 (i 0) k) * X (ix2 (i 1) k)

/-- And `fire` of each. -/
def fired (X : S8192x784.Idx → EReal) (W : S8x784.Idx → EReal) : S8x8192.Idx → EReal :=
  fun i => Cert.Voltage.fire (products X W i)

theorem zeros : (![0, 0] : Fin 2 → Nat) = fun _ => 0 := funext fun a => by fin_cases a <;> rfl

/-- Where each window's block sits at point `t`: the images' at row block `t`, the weights' at the origin, both
    outputs' at column block `t`. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The image block at point `t` is feature rows 1024 t … of the feature array. -/
theorem image_block (c : Dev nD) (t : Fin cfg0.N) (r : Fin 1024) (k : Fin 784) (i : S8192x784.Idx)
    (hi0 : (i 0).val = 1024 * t.val + r.val) (hi1 : (i 1).val = k.val) :
    (iblk m c 0 t : Vec Ideal S1024x784 .f32) (ix2 r k) = (V m c main_call0_v0 : S8192x784.Idx → EReal) i := by
  obtain ⟨e0, e1, -⟩ := block_index t
  unfold iblk
  rw [View.read_apply]
  show V m c main_call0_v0 _ = V m c main_call0_v0 _
  congr 1
  funext a
  apply Fin.ext
  match a with
  | ⟨0, _⟩ => show win0_0.index t 0 * 1024 + 1 * r.val = (i 0).val; rw [e0, hi0]; omega
  | ⟨1, _⟩ => show win0_0.index t 1 * 784 + 1 * k.val = (i 1).val; rw [e1, hi1]; omega

/-- The weight block at every point is the weight array. -/
theorem weight_block (c : Dev nD) (t : Fin cfg0.N) (o : Fin 8) (k : Fin 784) :
    (iblk m c 1 t : Vec Ideal S8x784 .f32) (ix2 o k) = (V m c main_arg1 : S8x784.Idx → EReal) (ix2 o k) := by
  obtain ⟨-, -, e0, e1, -⟩ := block_index t
  unfold iblk
  rw [View.read_apply]
  show V m c main_arg1 _ = V m c main_arg1 _
  congr 1
  funext a
  apply Fin.ext
  match a with
  | ⟨0, _⟩ => show win0_1.index t 0 * 8 + 1 * o.val = o.val; rw [e0]; omega
  | ⟨1, _⟩ => show win0_1.index t 1 * 784 + 1 * k.val = k.val; rw [e1]; omega

/-- The product of the blocks at point `t`, at a block index `j`, is the array of inner products at row `j 0`,
    column 1024 t + `j 1`. -/
theorem product_block (c : Dev nD) (t : Fin cfg0.N) (j : S8x1024.Idx) (i : S8x8192.Idx)
    (hi0 : (i 0).val = (j 0).val) (hi1 : (i 1).val = 1024 * t.val + (j 1).val) :
    k0_pay1 (iblk m c 0 t : Vec Ideal S1024x784 .f32) (iblk m c 1 t : Vec Ideal S8x784 .f32) j
      = products (V m c main_call0_v0) (V m c main_arg1) i := by
  obtain ⟨o, r, rfl⟩ : ∃ (o : Fin 8) (r : Fin 1024), j = ix2 o r := ⟨j 0, j 1, eq_ix2 j⟩
  refine (product_apply (iblk m c 0 t : Vec Ideal S1024x784 .f32) (iblk m c 1 t : Vec Ideal S8x784 .f32) o r).trans ?_
  unfold products
  refine Finset.sum_congr rfl fun k _ => ?_
  rw [weight_block m c t o k, image_block m c t r k (ix2 (i 1) k) hi1 rfl]
  congr 2
  exact Shape.idx_ext₂ hi0.symm rfl

/-- What point `t` writes back to the first output: its columns of the inner products. -/
theorem products_written (c : Dev nD) (t : Fin cfg0.N) :
    (dats m 0 c).flushed 2 t
      = ((cfg0.win 2).blk t).view.read (Elt Ideal) (products (V m c main_call0_v0) (V m c main_arg1)) := by
  obtain ⟨-, -, -, -, e0, e1, -⟩ := block_index t
  show (cfg0.win 2).cut (grid0.coords t) ((dats m 0 c).after 2 t) = _
  rw [after0_2]
  unfold out0_2
  rw [View.canon_unit_zero zeros]
  simp only [View.ld_unit_zero (S := S1024x784) zeros, View.ld_unit_zero (S := S8x784) zeros]
  funext j
  rw [View.read_apply]
  refine product_block m c t ((cfg0.win 2).xinj (grid0.coords t) j) (((cfg0.win 2).blk t).view.emb j) ?_ ?_
  · show win0_2.index t 0 * 8 + 1 * (j 0).val = (j 0).val
    rw [e0]; omega
  · show win0_2.index t 1 * 1024 + 1 * (j 1).val = 1024 * t.val + (j 1).val
    rw [e1]; omega

/-- What point `t` writes back to the second output: its columns of the fired inner products. -/
theorem fired_written (c : Dev nD) (t : Fin cfg0.N) :
    (dats m 0 c).flushed 3 t
      = ((cfg0.win 3).blk t).view.read (Elt Ideal) (fired (V m c main_call0_v0) (V m c main_arg1)) := by
  obtain ⟨-, -, -, -, -, -, e0, e1⟩ := block_index t
  show (cfg0.win 3).cut (grid0.coords t) ((dats m 0 c).after 3 t) = _
  rw [after0_3]
  unfold out0_3
  rw [View.canon_unit_zero zeros]
  simp only [View.ld_unit_zero (S := S1024x784) zeros, View.ld_unit_zero (S := S8x784) zeros]
  funext j
  rw [View.read_apply]
  refine (spike_apply (iblk m c 0 t : Vec Ideal S1024x784 .f32) (iblk m c 1 t : Vec Ideal S8x784 .f32)
    ((cfg0.win 3).xinj (grid0.coords t) j)).trans ?_
  unfold fired
  refine congrArg Cert.Voltage.fire ?_
  refine product_block m c t ((cfg0.win 3).xinj (grid0.coords t) j) (((cfg0.win 3).blk t).view.emb j) ?_ ?_
  · show win0_3.index t 0 * 8 + 1 * (j 0).val = (j 0).val
    rw [e0]; omega
  · show win0_3.index t 1 * 1024 + 1 * (j 1).val = 1024 * t.val + (j 1).val
    rw [e1]; omega

/-- An index of the first output lies in point `t`'s block iff each coordinate lies in the block's range. -/
theorem mem_columns2 (t : Fin cfg0.N) (i : S8x8192.Idx) :
    i ∈ ((cfg0.win 2).blk t).view.set ↔ ∀ a : Fin 2, win0_2.index t a * S8x1024.size a ≤ (i a).val
      ∧ (i a).val < win0_2.index t a * S8x1024.size a + S8x1024.size a := by
  show i ∈ ((View.whole main_call0_v1_0).slice (win0_2.rect t)).set ↔ _
  rw [View.set_slice_whole, Rect.mem_set_unit]
  exact Iff.rfl

/-- The same for the second output. -/
theorem mem_columns3 (t : Fin cfg0.N) (i : S8x8192.Idx) :
    i ∈ ((cfg0.win 3).blk t).view.set ↔ ∀ a : Fin 2, win0_3.index t a * S8x1024.size a ≤ (i a).val
      ∧ (i a).val < win0_3.index t a * S8x1024.size a + S8x1024.size a := by
  show i ∈ ((View.whole main_call0_v1_1).slice (win0_3.rect t)).set ↔ _
  rw [View.set_slice_whole, Rect.mem_set_unit]
  exact Iff.rfl

/-- The point whose column block holds column `b`. -/
abbrev pointOf (b : Nat) (hb : b < 8192) : Fin cfg0.N := ⟨b / 1024, by rw [show cfg0.N = 8 from N_0]; omega⟩

/-- Every index of the first output is in the block of the point that owns its column. -/
theorem covered2 (i : S8x8192.Idx) :
    ∃ t : Fin cfg0.N, (cfg0.win 2).flush t = true ∧ i ∈ ((cfg0.win 2).blk t).view.set := by
  have h0 : (i 0).val < 8 := idx2_lt0 i
  have h1 : (i 1).val < 8192 := idx2_lt1 i
  refine ⟨pointOf (i 1).val h1, flush0_2 _, ?_⟩
  rw [mem_columns2]
  obtain ⟨-, -, -, -, e0, e1, -⟩ := block_index (pointOf (i 1).val h1)
  have e1' : win0_2.index (pointOf (i 1).val h1) 1 = (i 1).val / 1024 := e1
  intro a
  match a with
  | ⟨0, _⟩ =>
    show win0_2.index (pointOf (i 1).val h1) 0 * 8 ≤ (i 0).val ∧ (i 0).val < win0_2.index (pointOf (i 1).val h1) 0 * 8 + 8
    rw [e0]; omega
  | ⟨1, _⟩ =>
    show win0_2.index (pointOf (i 1).val h1) 1 * 1024 ≤ (i 1).val ∧ (i 1).val < win0_2.index (pointOf (i 1).val h1) 1 * 1024 + 1024
    rw [e1']; omega

/-- Likewise the second output. -/
theorem covered3 (i : S8x8192.Idx) :
    ∃ t : Fin cfg0.N, (cfg0.win 3).flush t = true ∧ i ∈ ((cfg0.win 3).blk t).view.set := by
  have h0 : (i 0).val < 8 := idx2_lt0 i
  have h1 : (i 1).val < 8192 := idx2_lt1 i
  refine ⟨pointOf (i 1).val h1, flush0_3 _, ?_⟩
  rw [mem_columns3]
  obtain ⟨-, -, -, -, -, -, e0, e1⟩ := block_index (pointOf (i 1).val h1)
  have e1' : win0_3.index (pointOf (i 1).val h1) 1 = (i 1).val / 1024 := e1
  intro a
  match a with
  | ⟨0, _⟩ =>
    show win0_3.index (pointOf (i 1).val h1) 0 * 8 ≤ (i 0).val ∧ (i 0).val < win0_3.index (pointOf (i 1).val h1) 0 * 8 + 8
    rw [e0]; omega
  | ⟨1, _⟩ =>
    show win0_3.index (pointOf (i 1).val h1) 1 * 1024 ≤ (i 1).val ∧ (i 1).val < win0_3.index (pointOf (i 1).val h1) 1 * 1024 + 1024
    rw [e1']; omega

/-- After the run the first output holds the inner products … -/
theorem products_final (c : Dev nD) :
    (dats m 0 c).arrAt 2 cfg0.N = products (V m c main_call0_v0) (V m c main_arg1) :=
  (dats m 0 c).arrAt_eq_of_cover 2 (products (V m c main_call0_v0) (V m c main_arg1))
    (fun t _ => products_written m c t) covered2

/-- … and the second the fired inner products. -/
theorem fired_final (c : Dev nD) :
    (dats m 0 c).arrAt 3 cfg0.N = fired (V m c main_call0_v0) (V m c main_arg1) :=
  (dats m 0 c).arrAt_eq_of_cover 3 (fired (V m c main_call0_v0) (V m c main_arg1))
    (fun t _ => fired_written m c t) covered3

end Cert.KernelIdeal.Hand

end
-- ==== Proof.KernelValue.lean ====
/-
  The kernel's run with its results named.

  Before the region the images are laid out as 8192 rows of 784 features; after it each [8, 8192] output is cut to its
  first five rows and transposed. So the second result is, at (b, o), the inner product of weight row `o` with the
  features of image `b`, and the first result is `fire` of it: the currents and the spikes.
-/
import proofs.«105879_g2000104130142098_pallasbulk_149_2_alg».proof.Proof.KernelArrays
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Idealize.ShloMosaic.StableHlo
open Cert.KernelIdeal Cert.KernelIdeal.Gen

variable (m : (ℓ : Loc nD τ sig) → Buf (Elt Ideal) ℓ) (ρ : Dev nD → PrngReg)

/-- The feature array the region finds is the images re-laid. -/
theorem features_entry (c : Dev nD) :
    (V m c main_call0_v0 : S8192x784.Idx → EReal)
      = shapeCast S8192x784 (m ((c : Thread nD τ).loc main_arg0) : S8192x28x28.Idx → EReal) shapeCasts_S8192x28x28_S8192x784 := by
  show StableHlo.after hostOps0 (fun b => m (c, b)) (Proc.devRef .tc main_call0_v0) = _
  after_results
  rfl

/-- Feature `k` of row `b` is pixel (k / 28, k % 28) of image `b`: the two have the same row-major position. -/
theorem feature_pixel (A : S8192x28x28.Idx → EReal) (b : Fin 8192) (k : Fin 784) :
    shapeCast S8192x784 A shapeCasts_S8192x28x28_S8192x784 (ix2 b k) = A (Cert.Voltage.pix b k) := by
  refine shapeCast_apply A _ (ix2 b k) (Cert.Voltage.pix b k) ?_
  rw [Shape.rowMajor_val_three, Shape.rowMajor_val_two]
  show (b.val * 28 + k.val / 28) * 28 + k.val % 28 = b.val * 784 + k.val
  omega

/-- Cut to five rows and transposed: what the host lines after the region make of an [8, 8192] array. -/
abbrev kept (Y : S8x8192.Idx → EReal) : S8192x5.Idx → EReal :=
  transpose S8192x5 [1, 0] (extractStridedSlice S5x8192 ![0, 0] Y slices_S8x8192_S5x8192_0_0) transposes_S5x8192_S8192x5_1_0

/-- At (b, o) it reads the array at (o, b). -/
theorem kept_apply (Y : S8x8192.Idx → EReal) (i : S8192x5.Idx) :
    kept Y i = Y (ix2 (Cert.Voltage.row (i 1)) (i 0)) := by
  refine (transpose_apply [1, 0] _ transposes_S5x8192_S8192x5_1_0 i (ix2 (i 1) (i 0)) fun b => ?_).trans ?_
  · match b with
    | ⟨0, _⟩ => rfl
    | ⟨1, _⟩ => rfl
  · refine extractStridedSlice_apply ![0, 0] Y slices_S8x8192_S5x8192_0_0 (ix2 (i 1) (i 0)) _ fun a => ?_
    match a with
    | ⟨0, _⟩ => show (i 1).val = 0 + (i 1).val; omega
    | ⟨1, _⟩ => show (i 0).val = 0 + (i 0).val; omega

/-- The second result after the host lines: the inner products, kept. -/
theorem current_tail (c : Dev nD) :
    Pipeline.afterTail₀ cfgs (dats m) 0 (V0 m) [hostOps1] c main_v0_1
      = kept (products (V m c main_call0_v0) (V m c main_arg1)) := by
  unfold Pipeline.afterTail₀
  show StableHlo.after hostOps1 _ (Proc.devRef .tc main_v0_1) = _
  after_results
  show kept (Pipeline.withArrays spec0 c (V0 m c) (fun w => (dats m 0 c).arrAt w cfg0.N)
    (Proc.devRef .tc (Pipeline.arrRef spec0 2))) = _
  rw [Pipeline.withArrays_arr spec0 launch0.win.arr_inj c (V0 m c) _ 2, products_final]

/-- The first result after the host lines: the fired inner products, kept. -/
theorem spikes_tail (c : Dev nD) :
    Pipeline.afterTail₀ cfgs (dats m) 0 (V0 m) [hostOps1] c main_v0_0
      = kept (fired (V m c main_call0_v0) (V m c main_arg1)) := by
  unfold Pipeline.afterTail₀
  show StableHlo.after hostOps1 _ (Proc.devRef .tc main_v0_0) = _
  after_results
  show kept (Pipeline.withArrays spec0 c (V0 m c) (fun w => (dats m 0 c).arrAt w cfg0.N)
    (Proc.devRef .tc (Pipeline.arrRef spec0 3))) = _
  rw [Pipeline.withArrays_arr spec0 launch0.win.arr_inj c (V0 m c) _ 3, fired_final]

/-- The inner products of the weights with the re-laid images, kept, are the currents. -/
theorem kept_products (A : S8192x28x28.Idx → EReal) (W : S8x784.Idx → EReal) :
    kept (products (shapeCast S8192x784 A shapeCasts_S8192x28x28_S8192x784) W) = Cert.Voltage.current A W := by
  funext i
  rw [kept_apply]
  unfold products Cert.Voltage.current Cert.Voltage.dot
  refine Finset.sum_congr rfl fun k _ => ?_
  exact congrArg (W (ix2 (Cert.Voltage.row (i 1)) k) * ·) (feature_pixel A (i 0) k)

/-- And fired, the spikes. -/
theorem kept_fired (A : S8192x28x28.Idx → EReal) (W : S8x784.Idx → EReal) :
    kept (fired (shapeCast S8192x784 A shapeCasts_S8192x28x28_S8192x784) W) = Cert.Voltage.spikes A W := by
  funext i
  rw [kept_apply]
  unfold fired Cert.Voltage.spikes
  refine congrArg Cert.Voltage.fire ?_
  exact (kept_apply _ i).symm.trans (congrFun (kept_products A W) i)

/-- THE RUN: every weakly fair execution ends with the spikes and the currents of the argument arrays in the two
    results, the arguments unchanged. -/
theorem run : θ_run (defs (F := Ideal)) (onTc (τ := τ) (main (F := Ideal))) ⟨m, fun _ => 0, ρ⟩ fun r => ∀ c : Dev nD,
      r.2.mem ((c.tc : Thread nD τ).loc main_v0_0)
        = Cert.Voltage.spikes (m ((c.tc : Thread nD τ).loc main_arg0)) (m ((c.tc : Thread nD τ).loc main_arg1))
      ∧ r.2.mem ((c.tc : Thread nD τ).loc main_v0_1)
        = Cert.Voltage.current (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0_0 (Pipeline.mem_restRefs_of main_v0_0 (by decide) (by decide))).trans
        ((spikes_tail m c).trans (by rw [features_entry, V_main_arg1]; exact kept_fired _ _)),
      ((h c).2 main_v0_1 (Pipeline.mem_restRefs_of main_v0_1 (by decide) (by decide))).trans
        ((current_tail m c).trans (by rw [features_entry, V_main_arg1]; exact kept_products _ _)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Hand

end
-- ==== Proof.RefValue.lean ====
/-
  The value of the reference program.

  The reference re-lays the 8192 images of 28 × 28 pixels as 8192 rows of 784 features, and then, image by image,
  multiplies each of the eight weight rows entrywise with the image's feature row and sums along the row: entry
  (b, o, l) of its [8192, 8, 128] output is the inner product of weight row o with the features of image b, the same
  in every lane l. The lines after that keep rows 0 … 4 at lane 0 as an [8192, 5] array — the currents — and divide
  them by one word, compare with another and convert the bit — the spikes.

  Here: the stored block of one image at an index (`pay_apply`, `pay_at`); each block read as part of its array
  (`wblk_apply`, `xblk_apply`), so that what image b writes back is block b of one whole-array function `G`
  (`flushed_eq`); the blocks cover the output, block b holding exactly the entries with leading coordinate b
  (`index_out`, `mem_blk`, `cover`, `final`); the feature rows as pixels, by equal row-major positions
  (`rows_entry`, `row_pixel`); the kept part and the thresholding at an index (`kept_apply`, `thresholded_apply`),
  which make the two results the currents and the spikes of the specification (`kept_current`, `kept_spikes`, `run`).
-/
import proofs.«105879_g2000104130142098_pallasbulk_149_2_alg».proof.Proof.Gen.ReferenceIdeal.Frame
import proofs.«105879_g2000104130142098_pallasbulk_149_2_alg».proof.Proof.Spec
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open Idealize.ShloMosaic.StableHlo
open scoped BigOperators

namespace Cert.ReferenceIdeal.Hand

open Cert.ReferenceIdeal Cert.ReferenceIdeal.Gen

variable (m : (ℓ : Loc nD τ sig) → Buf (Elt Ideal) ℓ) (ρ : Dev nD → PrngReg)

/-! ## The body's stored block -/

/-- The stored block at output row o, lane l: the inner product of weight row o with the loaded image row. -/
theorem pay_apply (x0 : Vec Ideal S1x1x784 .f32) (x1 : Vec Ideal S8x784 .f32) (o : Fin 8) (l : Fin 128) :
    k0_pay1 x0 x1 (ix3 0 o l) = ∑ k : Fin 784, x1 (ix2 o k) * x0 (ix3 0 0 k) := by
  unfold k0_pay1
  refine (shapeCast_addUnit_apply ![8, 128] _ _ (ix3 0 o l)).trans ?_
  refine (broadcastTo_apply _ _ _ (ix2 o 0) (fun a => by
    match a with
    | ⟨0, _⟩ => rfl
    | ⟨1, _⟩ => rfl)).trans ?_
  rw [shapeCast_self]
  refine (shapeCast_apply _ _ (ix2 o 0) (ix1 o) (by
    rw [Shape.rowMajor_val_one, Shape.rowMajor_val_two]; show o.val = o.val * 1 + 0; omega)).trans ?_
  refine (Ideal.multiReduction_add_single _ _ _ _ _ (ix1 o)).trans ?_
  refine Finset.sum_congr rfl fun k _ => ?_
  rw [mulf_apply]
  have hl : reduces_S8x784_S8.lift (ix1 o) k = ix2 o k := by
    funext a
    match a with
    | ⟨0, _⟩ => exact Fin.ext rfl
    | ⟨1, _⟩ => exact Fin.ext rfl
  rw [hl]
  congr 1
  refine (broadcastTo_apply _ _ (ix2 o k) (ix2 0 k) (fun a => by
    match a with
    | ⟨0, _⟩ => rfl
    | ⟨1, _⟩ => rfl)).trans ?_
  refine (shapeCast_dropUnit_apply ![1, 784] _ _ (ix2 0 k)).trans ?_
  congr 1
  funext a
  match a with
  | ⟨0, _⟩ => rfl
  | ⟨1, _⟩ => rfl
  | ⟨2, _⟩ => rfl

/-- The same at any index of the block: its leading coordinate is the only one there is. -/
theorem pay_at (x0 : Vec Ideal S1x1x784 .f32) (x1 : Vec Ideal S8x784 .f32) (y : S1x8x128.Idx) :
    k0_pay1 x0 x1 y = ∑ k : Fin 784, x1 (ix2 (y 1) k) * x0 (ix3 0 0 k) := by
  have hy : y = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  rw [hy]
  exact pay_apply x0 x1 (y 1) (y 2)

/-! ## From blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The whole output array as a function of the two arrays the region reads: entry (b, o, l) is the inner product of
    weight row o with image row b, whatever the lane l. -/
abbrev G (X : S8192x1x784.Idx → EReal) (W : S8x784.Idx → EReal) : S8192x8x128.Idx → EReal :=
  fun i => ∑ k : Fin 784, W (ix2 (i 1) k) * X (ix3 (i 0) 0 k)

/-- The weights' window has one block, the whole array: its block at any point reads the array itself. -/
theorem wblk_apply (c : Dev nD) (t : Fin cfg0.N) (x : S8x784.Idx) :
    (iblk m c 1 t : Vec Ideal S8x784 .f32) x = (V m c main_arg1 : S8x784.Idx → EReal) x := by
  unfold iblk
  rw [View.read_apply]
  show V m c main_arg1 _ = V m c main_arg1 _
  congr 1
  funext a
  apply Fin.ext
  match a with
  | ⟨0, _⟩ => show 0 * 8 + 1 * (x 0).val = (x 0).val; omega
  | ⟨1, _⟩ => show 0 * 784 + 1 * (x 1).val = (x 1).val; omega

/-- The images' window at a point is one image row: the row whose number is the block's leading index. -/
theorem xblk_apply (c : Dev nD) (t : Fin cfg0.N) (x : S1x1x784.Idx) (i : S8192x1x784.Idx)
    (h0 : (i 0).val = win0_0.index t 0) (h1 : (i 1).val = 0) (h2 : (i 2).val = (x 2).val) :
    (iblk m c 0 t : Vec Ideal S1x1x784 .f32) x = (V m c main_call0_v0 : S8192x1x784.Idx → EReal) i := by
  unfold iblk
  rw [View.read_apply]
  show V m c main_call0_v0 _ = V m c main_call0_v0 _
  congr 1
  funext a
  apply Fin.ext
  have hx0 : (x 0).val < 1 := (x 0).isLt
  have hx1 : (x 1).val < 1 := (x 1).isLt
  match a with
  | ⟨0, _⟩ => show win0_0.index t 0 * 1 + 1 * (x 0).val = (i 0).val; rw [h0]; omega
  | ⟨1, _⟩ => show 0 * 1 + 1 * (x 1).val = (i 1).val; rw [h1]; omega
  | ⟨2, _⟩ => show 0 * 784 + 1 * (x 2).val = (i 2).val; rw [h2]; omega

/-- What a point writes back is its block of the whole-array function. -/
theorem flushed_eq (c : Dev nD) (t : Fin cfg0.N) :
    (dats m 0 c).flushed 2 t = ((cfg0.win 2).blk t).view.read (Elt Ideal) (G (V m c main_call0_v0) (V m c main_arg1)) := by
  show (cfg0.win 2).cut (grid0.coords t) ((dats m 0 c).after 2 t) = _
  rw [after0_2]
  unfold out0_2
  rw [View.canon_unit_zero hz3]
  simp only [View.ld_unit_zero (S := S1x1x784) hz3, View.ld_unit_zero (S := S8x784) hz2]
  funext j
  show k0_pay1 (iblk m c 0 t) (iblk m c 1 t) ((cfg0.win 2).xinj (grid0.coords t) j) = G (V m c main_call0_v0) (V m c main_arg1) (((cfg0.win 2).blk t).view.emb j)
  refine (pay_at (iblk m c 0 t) (iblk m c 1 t) _).trans ?_
  refine Finset.sum_congr rfl fun k _ => ?_
  have e1 : ((cfg0.win 2).xinj (grid0.coords t) j 1 : Fin 8) = ((cfg0.win 2).blk t).view.emb j 1 :=
    Fin.ext (by show (j 1).val = 0 * 8 + 1 * (j 1).val; omega)
  rw [wblk_apply, e1]
  refine congrArg (HMul.hMul _) ?_
  have hj : (j 0).val < 1 := (j 0).isLt
  refine xblk_apply m c t (ix3 0 0 k) (ix3 (((cfg0.win 2).blk t).view.emb j 0) 0 k) ?_ rfl rfl
  show win0_0.index t 0 * 1 + 1 * (j 0).val = win0_0.index t 0
  omega

/-- The output window's leading block index at a point is the point's number: the grid has the one axis, of 8192 points. -/
theorem index_out (t : Fin cfg0.N) : win0_2.index t (0 : Fin 3) = t.val := by
  have hN : grid0.N = 8192 := N_0
  have ht : t.val < 8192 := lt_of_lt_of_eq t.isLt N_0
  have hs : grid0.stride 0 = 1 := by decide
  show (BitVec.ofNat 32 (t.val / grid0.stride 0 % 8192)).toNat = t.val
  rw [hs, BitVec.toNat_ofNat]
  omega

/-- An index of the output array is in a point's block iff each coordinate is in the block's range on its axis. -/
theorem mem_blk (t : Fin cfg0.N) (i : S8192x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_call0_v1).slice (win0_2.rect t)).set ↔ _
  rw [View.set_slice_whole, Rect.mem_set_unit]
  exact Iff.rfl

/-- Every entry of the output array is in the block of the point its leading coordinate names. -/
theorem cover (i : S8192x8x128.Idx) : ∃ t : Fin cfg0.N, (cfg0.win 2).flush t = true ∧ i ∈ ((cfg0.win 2).blk t).view.set := by
  have hi0 : (i 0).val < 8192 := (i 0).isLt
  have hi1 : (i 1).val < 8 := (i 1).isLt
  have hi2 : (i 2).val < 128 := (i 2).isLt
  refine ⟨⟨(i 0).val, by rw [show cfg0.N = 8192 from N_0]; exact hi0⟩, flush0_2 _, ?_⟩
  rw [mem_blk]
  intro a
  match a with
  | ⟨0, _⟩ =>
    show win0_2.index _ (0 : Fin 3) * 1 ≤ (i 0).val ∧ (i 0).val < win0_2.index _ (0 : Fin 3) * 1 + 1
    rw [index_out]
    show (i 0).val * 1 ≤ (i 0).val ∧ (i 0).val < (i 0).val * 1 + 1
    omega
  | ⟨1, _⟩ => show 0 * 8 ≤ (i 1).val ∧ (i 1).val < 0 * 8 + 8; omega
  | ⟨2, _⟩ => show 0 * 128 ≤ (i 2).val ∧ (i 2).val < 0 * 128 + 128; omega

/-- So the output array ends holding the whole-array function of the arrays the region read. -/
theorem final (c : Dev nD) : (dats m 0 c).arrAt 2 cfg0.N = G (V m c main_call0_v0) (V m c main_arg1) :=
  (dats m 0 c).arrAt_eq_of_cover 2 (G (V m c main_call0_v0) (V m c main_arg1)) (fun t _ => flushed_eq m c t) cover

/-! ## The arrays as the region finds them -/

/-- The image-row array the region finds is the images re-laid. -/
theorem rows_entry (c : Dev nD) :
    (V m c main_call0_v0 : S8192x1x784.Idx → EReal)
      = shapeCast S8192x1x784 (m ((c : Thread nD τ).loc main_arg0) : S8192x28x28.Idx → EReal) shapeCasts_S8192x28x28_S8192x1x784 := by
  show StableHlo.after hostOps0 (fun b => m (c, b)) (Proc.devRef .tc main_call0_v0) = _
  after_results
  rfl

/-- Feature k of row b is pixel (k / 28, k % 28) of image b: the two have the same row-major position. -/
theorem row_pixel (A : S8192x28x28.Idx → EReal) (b : Fin 8192) (k : Fin 784) :
    shapeCast S8192x1x784 A shapeCasts_S8192x28x28_S8192x1x784 (ix3 b 0 k) = A (Cert.Voltage.pix b k) := by
  refine shapeCast_apply A _ (ix3 b 0 k) (Cert.Voltage.pix b k) ?_
  rw [Shape.rowMajor_val_three, Shape.rowMajor_val_three]
  show (b.val * 28 + k.val / 28) * 28 + k.val % 28 = (b.val * 1 + 0) * 784 + k.val
  omega

/-! ## The host lines after the region -/

/-- The first five rows, at lane 0, of an [8192, 8, 128] array, as an [8192, 5] array: what the host keeps of the
    region's output. -/
abbrev kept (Y : S8192x8x128.Idx → EReal) : S8192x5.Idx → EReal :=
  shapeCast S8192x5 (extractStridedSlice S8192x5x1 ![0, 0, 0] Y slices_S8192x8x128_S8192x5x1_0_0_0) shapeCasts_S8192x5x1_S8192x5

/-- The host's thresholding of an [8192, 5] array: divide by the one word everywhere, compare with the other, convert
    the bit. -/
abbrev thresholded (Z : S8192x5.Idx → EReal) : S8192x5.Idx → EReal :=
  uitofp (F := Ideal) .f32 (cmpf (F := Ideal) .oge
    (Host.divf (F := Ideal) (φ := .f32) Z (broadcastInDim S8192x5 ![] bcast_S_S8192x5 (constant (F := Ideal) S_ .f32 0x40000000#32)))
    (broadcastInDim S8192x5 ![] bcast_S_S8192x5 (constant (F := Ideal) S_ .f32 0x3F4CCCCD#32)))

/-- The second result after the host lines: the kept part of the region's output. -/
theorem current_tail (c : Dev nD) :
    Pipeline.afterTail₀ cfgs (dats m) 0 (V0 m) [hostOps1] c main_v0_1 = kept (G (V m c main_call0_v0) (V m c main_arg1)) := by
  unfold Pipeline.afterTail₀
  show StableHlo.after hostOps1 _ (Proc.devRef .tc main_v0_1) = _
  after_results
  show kept (Pipeline.withArrays spec0 c (V0 m c) (fun w => (dats m 0 c).arrAt w cfg0.N)
    (Proc.devRef .tc (Pipeline.arrRef spec0 2))) = _
  rw [Pipeline.withArrays_arr spec0 launch0.win.arr_inj c (V0 m c) _ 2, final]

/-- The first result after the host lines: the kept part, thresholded. -/
theorem spikes_tail (c : Dev nD) :
    Pipeline.afterTail₀ cfgs (dats m) 0 (V0 m) [hostOps1] c main_v0_0 = thresholded (kept (G (V m c main_call0_v0) (V m c main_arg1))) := by
  unfold Pipeline.afterTail₀
  show StableHlo.after hostOps1 _ (Proc.devRef .tc main_v0_0) = _
  after_results
  show thresholded (kept (Pipeline.withArrays spec0 c (V0 m c) (fun w => (dats m 0 c).arrAt w cfg0.N)
    (Proc.devRef .tc (Pipeline.arrRef spec0 2)))) = _
  rw [Pipeline.withArrays_arr spec0 launch0.win.arr_inj c (V0 m c) _ 2, final]

/-- The kept part at (b, o) reads the array at (b, o, 0), o as one of the eight rows. -/
theorem kept_apply (Y : S8192x8x128.Idx → EReal) (i : S8192x5.Idx) :
    kept Y i = Y (ix3 (i 0) (Cert.Voltage.row (i 1)) 0) := by
  refine (shapeCast_apply _ shapeCasts_S8192x5x1_S8192x5 i (ix3 (i 0) (i 1) 0) ?_).trans ?_
  · rw [Shape.rowMajor_val_three, Shape.rowMajor_val_two]
    show ((i 0).val * 5 + (i 1).val) * 1 + 0 = (i 0).val * 5 + (i 1).val
    omega
  · refine extractStridedSlice_apply ![0, 0, 0] Y slices_S8192x8x128_S8192x5x1_0_0_0 (ix3 (i 0) (i 1) 0) _ fun a => ?_
    match a with
    | ⟨0, _⟩ => show (i 0).val = 0 + (i 0).val; omega
    | ⟨1, _⟩ => show (i 1).val = 0 + (i 1).val; omega
    | ⟨2, _⟩ => show 0 = 0 + 0; omega

/-- The thresholding at an index is the neuron's firing rule on that entry. -/
theorem thresholded_apply (Z : S8192x5.Idx → EReal) (i : S8192x5.Idx) : thresholded Z i = Cert.Voltage.fire (Z i) :=
  Cert.Voltage.fire_unsigned (Z i)

/-- The kept inner products of the weights with the re-laid images are the currents. -/
theorem kept_current (A : S8192x28x28.Idx → EReal) (W : S8x784.Idx → EReal) :
    kept (G (shapeCast S8192x1x784 A shapeCasts_S8192x28x28_S8192x1x784) W) = Cert.Voltage.current A W := by
  funext i
  rw [kept_apply]
  unfold Cert.Voltage.current Cert.Voltage.dot
  show ∑ k : Fin 784, W (ix2 (Cert.Voltage.row (i 1)) k) * shapeCast S8192x1x784 A shapeCasts_S8192x28x28_S8192x1x784 (ix3 (i 0) 0 k)
    = ∑ k : Fin 784, W (ix2 (Cert.Voltage.row (i 1)) k) * A (Cert.Voltage.pix (i 0) k)
  refine Finset.sum_congr rfl fun k _ => ?_
  exact congrArg (W (ix2 (Cert.Voltage.row (i 1)) k) * ·) (row_pixel A (i 0) k)

/-- And thresholded, the spikes. -/
theorem kept_spikes (A : S8192x28x28.Idx → EReal) (W : S8x784.Idx → EReal) :
    thresholded (kept (G (shapeCast S8192x1x784 A shapeCasts_S8192x28x28_S8192x1x784) W)) = Cert.Voltage.spikes A W := by
  funext i
  rw [thresholded_apply]
  unfold Cert.Voltage.spikes
  exact congrArg Cert.Voltage.fire (congrFun (kept_current A W) i)

/-! ## The run, read -/

/-- Every weakly fair execution ends with the spikes and the currents of the argument arrays in the two results, the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = Cert.Voltage.spikes (m ((c.tc : Thread nD τ).loc main_arg0)) (m ((c.tc : Thread nD τ).loc main_arg1))
      ∧ r.2.mem ((c.tc : Thread nD τ).loc main_v0_1) = Cert.Voltage.current (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0_0 (Pipeline.mem_restRefs_of main_v0_0 (by decide) (by decide))).trans
        ((spikes_tail m c).trans (by rw [rows_entry, V_main_arg1]; exact kept_spikes _ _)),
      ((h c).2 main_v0_1 (Pipeline.mem_restRefs_of main_v0_1 (by decide) (by decide))).trans
        ((current_tail m c).trans (by rw [rows_entry, V_main_arg1]; exact kept_current _ _)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.ReferenceIdeal.Hand

end
-- ==== Proof.lean ====
/-
  The certificate: a blocked matrix product against a row-by-row multiply-and-sum.

  Both programs take 8192 images of 28 × 28 pixels and an [8, 784] weight array (five neurons' rows padded to eight) and
  return, for every image and each of the five neurons, the neuron's input current — the inner product of its weight row
  with the image's 784 pixels — and its spike: 1 when the current divided by the word 0x40000000 reaches the threshold
  word 0x3F4CCCCD, else 0.

  The kernel takes the images 1024 at a time and forms all their currents in one product of the weight block with the
  image block, contracted over the 784 pixels from a zero accumulator, fires inside the same body, and writes both as
  columns of two [8, 8192] arrays that the host then cuts to five rows and transposes. The reference takes the images one
  at a time, multiplies the weight block by the image's row, sums each row over the pixels, spreads the eight sums
  over 128 lanes, and the host keeps lane 0 of the first five rows and fires there.

  Over the extended reals a product into a zero accumulator and a row sum from the zero word are both the plain finite
  sum of the 784 products, in any order, so the two currents are one function of the arguments; the two programs divide
  and compare with the same words; and a one-bit result widened to a word and read signed is the bit read unsigned.
  No finiteness of the inputs is used. The three frames are the generated ones; the ideal pass rewrote nothing.
-/
import proofs.«105879_g2000104130142098_pallasbulk_149_2_alg».proof.Defs
import proofs.«105879_g2000104130142098_pallasbulk_149_2_alg».proof.Proof.Gen.Kernel
import proofs.«105879_g2000104130142098_pallasbulk_149_2_alg».proof.Proof.Gen.Kernel.Frame
import proofs.«105879_g2000104130142098_pallasbulk_149_2_alg».proof.Proof.Gen.KernelIdeal
import proofs.«105879_g2000104130142098_pallasbulk_149_2_alg».proof.Proof.Gen.KernelIdeal.Frame
import proofs.«105879_g2000104130142098_pallasbulk_149_2_alg».proof.Proof.Gen.ReferenceIdeal
import proofs.«105879_g2000104130142098_pallasbulk_149_2_alg».proof.Proof.Gen.ReferenceIdeal.Frame
import proofs.«105879_g2000104130142098_pallasbulk_149_2_alg».proof.Proof.Gen.Pre_finite_inputs
import proofs.«105879_g2000104130142098_pallasbulk_149_2_alg».proof.Proof.KernelValue
import proofs.«105879_g2000104130142098_pallasbulk_149_2_alg».proof.Proof.RefValue

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ => Cert.ReferenceIdeal.Gen.frame m ρ

/-- From memories that agree on the images and the weights both idealized programs end with the spikes and the
    currents of those arguments in their two results. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun r h c => ?_) (Cert.ReferenceIdeal.Hand.run m' ρ')
  obtain ⟨h0, h1, h2, h3⟩ := h c
  refine ⟨?_, ?_, h2, h3⟩
  · rw [h0, (hagree c).1, (hagree c).2]
  · rw [h1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
